-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x16 : Shape := ⟨2, ![1000000, 16]⟩
abbrev S16x64 : Shape := ⟨2, ![16, 64]⟩
abbrev S64 : Shape := ⟨1, ![64]⟩
abbrev S64x64 : Shape := ⟨2, ![64, 64]⟩
abbrev S2x1000000 : Shape := ⟨2, ![2, 1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64 .f32) (main_arg6 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : FVec F S1000000x16 .f32) (main_arg2 : FVec F S16x64 .f32) (main_arg3 : FVec F S64 .f32) (main_arg4 : FVec F S64x64 .f32) (main_arg5 : FVec F S64 .f32) (main_arg6 : FVec F S64x64 .f32) (main_arg7 : IVec S2x1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x16 .f32 := Host.absf main_arg1
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S100000x64 : Shape := ⟨2, ![100000, 64]⟩
abbrev S1000000x16 : Shape := ⟨2, ![1000000, 16]⟩
abbrev S16x64 : Shape := ⟨2, ![16, 64]⟩
abbrev S64 : Shape := ⟨1, ![64]⟩
abbrev S64x64 : Shape := ⟨2, ![64, 64]⟩
abbrev S2x1000000 : Shape := ⟨2, ![2, 1000000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S10000x64 : Shape := ⟨2, ![10000, 64]⟩
abbrev S10000x16 : Shape := ⟨2, ![10000, 16]⟩
abbrev S100000x1 : Shape := ⟨2, ![100000, 1]⟩

abbrev nBuf : Space → Nat
  | .hbm => 43
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S1000000x16, .f32⟩
  | .hbm, ⟨2, _⟩ => ⟨S16x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S2x1000000, .i32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S16x64, .bf16⟩
  | .hbm, ⟨22, _⟩ => ⟨S1x64, .f32⟩
  | .hbm, ⟨23, _⟩ => ⟨S1000000x64, .f32⟩
  | .hbm, ⟨24, _⟩ => ⟨S_, .f32⟩
  | .hbm, ⟨25, _⟩ => ⟨S100000x64, .f32⟩
  | .hbm, ⟨26, _⟩ => ⟨S1000000x1, .i32⟩
  | .hbm, ⟨27, _⟩ => ⟨S100000x64, .f32⟩
  | .hbm, ⟨28, _⟩ => ⟨S_, .f32⟩
  | .hbm, ⟨29, _⟩ => ⟨S1000000x1, .f32⟩
  | .hbm, ⟨30, _⟩ => ⟨S_, .f32⟩
  | .hbm, ⟨31, _⟩ => ⟨S100000x1, .f32⟩
  | .hbm, ⟨32, _⟩ => ⟨S1000000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x64, .bf16⟩
  | .hbm, ⟨40, _⟩ => ⟨S64x64, .bf16⟩
  | .hbm, ⟨41, _⟩ => ⟨S1x64, .f32⟩
  | .hbm, ⟨42, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x16, .f32⟩
  | .local _ .vmem, ⟨3, _⟩ => ⟨S10000x16, .f32⟩
  | .local _ .vmem, ⟨4, _⟩ => ⟨S16x64, .bf16⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .bf16⟩
  | .local _ .vmem, ⟨13, _⟩ => ⟨S1x64, .f32⟩
  | .local _ .vmem, ⟨14, _⟩ => ⟨S64x64, .bf16⟩
  | .local _ .vmem, ⟨15, _⟩ => ⟨S10000x64, .f32⟩
  | .local _ .vmem, ⟨16, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bitsLt_bf16_f32 : FTy.bits .bf16 < FTy.bits .f32
  shapeCasts_S64_S1x64 : S64.ShapeCasts S1x64
  inb_S10000x16_S10000x16_0_0 : ∀ a, (![0, 0] : Fin 2 → Nat) a + S10000x16.size a ≤ S10000x16.size a
  h_S10000x16 : 0 < S10000x16.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S100000x64 : S_.BroadcastsInDim S100000x64 (![] : Fin 0 → Fin S100000x64.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  gather_S100000x64_S1000000x1_S1000000x64_1_0_n_n_0_1_164_wf : GatherDims.WF S100000x64 S1000000x1 S1000000x64 [1] [0] [] [0] [] 1 ![1, 64]
  dot_S10000x16_S16x64_S10000x64_1_0_0_1_n_n_wf : DotDims.WF S10000x16 S16x64 S10000x64 [1] [0] [0] [1] [] []
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S1000000x16.size a
  hwx0_1 : ∀ i : grid0.Coords, EltTy.bits .f32 = 32 ∨ (Rect.block (s := S1000000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .bf16 = 32 ∨ (Rect.block (s := S16x64) S16x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S1000000x64.size a
  hwx0_4 : ∀ i : grid0.Coords, EltTy.bits .f32 = 32 ∨ (Rect.block (s := S1000000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v10) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000x16 : Shape := ⟨2, ![1000000, 16]⟩
abbrev S16x64 : Shape := ⟨2, ![16, 64]⟩
abbrev S64 : Shape := ⟨1, ![64]⟩
abbrev S64x64 : Shape := ⟨2, ![64, 64]⟩
abbrev S2x1000000 : Shape := ⟨2, ![2, 1000000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S100000x1 : Shape := ⟨2, ![100000, 1]⟩

abbrev nBuf : Space → Nat
  | .hbm => 47
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x16, .f32⟩
  | .hbm, ⟨2, _⟩ => ⟨S16x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S2x1000000, .i32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S1000000x64, .f32⟩
  | .hbm, ⟨22, _⟩ => ⟨S1x64, .f32⟩
  | .hbm, ⟨23, _⟩ => ⟨S1000000x64, .f32⟩
  | .hbm, ⟨24, _⟩ => ⟨S1000000x64, .f32⟩
  | .hbm, ⟨25, _⟩ => ⟨S1000000x64, .f32⟩
  | .hbm, ⟨26, _⟩ => ⟨S_, .f32⟩
  | .hbm, ⟨27, _⟩ => ⟨S100000x64, .f32⟩
  | .hbm, ⟨28, _⟩ => ⟨S1000000x1, .i32⟩
  | .hbm, ⟨29, _⟩ => ⟨S100000x64, .f32⟩
  | .hbm, ⟨30, _⟩ => ⟨S_, .f32⟩
  | .hbm, ⟨31, _⟩ => ⟨S1000000x1, .f32⟩
  | .hbm, ⟨32, _⟩ => ⟨S_, .f32⟩
  | .hbm, ⟨33, _⟩ => ⟨S100000x1, .f32⟩
  | .hbm, ⟨34, _⟩ => ⟨S1000000x1, .i32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S100000x64 : S_.BroadcastsInDim S100000x64 (![] : Fin 0 → Fin S100000x64.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  dot_S1000000x16_S16x64_S1000000x64_1_0_0_1_n_n_wf : DotDims.WF S1000000x16 S16x64 S1000000x64 [1] [0] [0] [1] [] []
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Payload.lean ====
/-
  The two kernel bodies as functions of their loaded blocks, read at an index of the output block (at the exact
  instance, where a float is an extended real and a change of format is the identity).

  Edge-message body, on a block of 10000 edges: entry (p, q) is
      (x_src[p, q] + ∑ k < 16, e[p, k] · W_e[k, q]) + b_e[0, q].
  Combine body, on a block of 10000 nodes: entry (p, q) is
      ((∑ k < 64, a[p, k] · W_l[k, q]) + b_l[0, q]) + ∑ k < 64, x[p, k] · W_r[k, q].
  A matrix product into a zero accumulator is the plain sum over the one contracted axis; the bias row is broadcast
  along the rows; the casts to the narrow format do nothing.
-/
import proofs.«141460_j24996709662725_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.TcCoe Idealize.SL.Sem

/-! ## The two matrix products at an index -/

theorem lhs16_0 (j : S10000x64.Idx) (q : dot_S10000x16_S16x64_S10000x64_1_0_0_1_n_n.contr.Idx) :
    (dot_S10000x16_S16x64_S10000x64_1_0_0_1_n_n.lhsIdx j q 0).val = (j 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
theorem lhs16_1 (j : S10000x64.Idx) (q : dot_S10000x16_S16x64_S10000x64_1_0_0_1_n_n.contr.Idx) :
    (dot_S10000x16_S16x64_S10000x64_1_0_0_1_n_n.lhsIdx j q 1).val = (q ⟨0, by decide⟩).val :=
  dot_S10000x16_S16x64_S10000x64_1_0_0_1_n_n.lhsIdx_val_of_single rfl j q
theorem rhs16_0 (j : S10000x64.Idx) (q : dot_S10000x16_S16x64_S10000x64_1_0_0_1_n_n.contr.Idx) :
    (dot_S10000x16_S16x64_S10000x64_1_0_0_1_n_n.rhsIdx j q 0).val = (q ⟨0, by decide⟩).val :=
  dot_S10000x16_S16x64_S10000x64_1_0_0_1_n_n.rhsIdx_val_of_single rfl j q
theorem rhs16_1 (j : S10000x64.Idx) (q : dot_S10000x16_S16x64_S10000x64_1_0_0_1_n_n.contr.Idx) :
    (dot_S10000x16_S16x64_S10000x64_1_0_0_1_n_n.rhsIdx j q 1).val = (j 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

/-- Row `j 0` of the block's left operand at column `k`. -/
abbrev lk16 (j : S10000x64.Idx) (k : Fin 16) : S10000x16.Idx := fun a => match a with
  | ⟨0, _⟩ => ⟨(j 0).val, (j 0).isLt⟩
  | ⟨1, _⟩ => ⟨k.val, k.isLt⟩
/-- Row `k` of the weight at column `j 1`. -/
abbrev rk16 (j : S10000x64.Idx) (k : Fin 16) : S16x64.Idx := fun a => match a with
  | ⟨0, _⟩ => ⟨k.val, k.isLt⟩
  | ⟨1, _⟩ => ⟨(j 1).val, (j 1).isLt⟩

/-- The block's matrix product into a zero accumulator, read at `j`: the row of the left operand against the column of
    the weight, summed over the 16 contracted positions. -/
theorem mm16_apply {φ₁ φ₂ : FTy} (l : FVec Ideal S10000x16 φ₁) (r : FVec Ideal S16x64 φ₂) (j : S10000x64.Idx) :
    matmul dot_S10000x16_S16x64_S10000x64_1_0_0_1_n_n none l r (constant S10000x64 .f32 0x00000000#32) j
      = ∑ k : Fin 16, l (lk16 j k) * r (rk16 j k) := by
  show FloatOps.matmul dot_S10000x16_S16x64_S10000x64_1_0_0_1_n_n none l r (constant S10000x64 .f32 0x00000000#32) j = _
  rw [Ideal.matmul_constant_zero_apply, ← Equiv.sum_comp (ValueIdx.contrEquiv1 dot_S10000x16_S16x64_S10000x64_1_0_0_1_n_n 16 rfl rfl).symm]
  refine Finset.sum_congr rfl fun k _ => ?_
  have hk := ValueIdx.contrEquiv1_symm_val dot_S10000x16_S16x64_S10000x64_1_0_0_1_n_n 16 rfl rfl k
  have el : dot_S10000x16_S16x64_S10000x64_1_0_0_1_n_n.lhsIdx j ((ValueIdx.contrEquiv1 dot_S10000x16_S16x64_S10000x64_1_0_0_1_n_n 16 rfl rfl).symm k) = lk16 j k := funext fun a => Fin.ext (by
    match a with
    | ⟨0, _⟩ => exact lhs16_0 _ _
    | ⟨1, _⟩ => exact (lhs16_1 _ _).trans hk)
  have er : dot_S10000x16_S16x64_S10000x64_1_0_0_1_n_n.rhsIdx j ((ValueIdx.contrEquiv1 dot_S10000x16_S16x64_S10000x64_1_0_0_1_n_n 16 rfl rfl).symm k) = rk16 j k := funext fun a => Fin.ext (by
    match a with
    | ⟨0, _⟩ => exact (rhs16_0 _ _).trans hk
    | ⟨1, _⟩ => exact rhs16_1 _ _)
  rw [el, er]

theorem lhs64_0 (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs64_1 (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
theorem rhs64_0 (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
theorem rhs64_1 (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Row `j 0` of the block's left operand at column `k`. -/
abbrev lk64 (j : S10000x64.Idx) (k : Fin 64) : S10000x64.Idx := fun a => match a with
  | ⟨0, _⟩ => ⟨(j 0).val, (j 0).isLt⟩
  | ⟨1, _⟩ => ⟨k.val, k.isLt⟩
/-- Row `k` of the weight at column `j 1`. -/
abbrev rk64 (j : S10000x64.Idx) (k : Fin 64) : S64x64.Idx := fun a => match a with
  | ⟨0, _⟩ => ⟨k.val, k.isLt⟩
  | ⟨1, _⟩ => ⟨(j 1).val, (j 1).isLt⟩

/-- The block's matrix product into a zero accumulator, read at `j`: the row of the left operand against the column of
    the weight, summed over the 64 contracted positions. -/
theorem mm64_apply {φ₁ φ₂ : FTy} (l : FVec Ideal S10000x64 φ₁) (r : FVec Ideal S64x64 φ₂) (j : S10000x64.Idx) :
    matmul dot_S10000x64_S64x64_S10000x64_1_0_0_1_n_n none l r (constant S10000x64 .f32 0x00000000#32) j
      = ∑ k : Fin 64, l (lk64 j k) * r (rk64 j k) := by
  show FloatOps.matmul dot_S10000x64_S64x64_S10000x64_1_0_0_1_n_n none l r (constant S10000x64 .f32 0x00000000#32) j = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = lk64 j k := funext fun a => Fin.ext (by
    match a with
    | ⟨0, _⟩ => exact lhs64_0 _ _
    | ⟨1, _⟩ => exact (lhs64_1 _ _).trans hk)
  have er : dot_S10000x64_S64x64_S10000x64_1_0_0_1_n_n.rhsIdx j ((ValueIdx.contrEquiv1 dot_S10000x64_S64x64_S10000x64_1_0_0_1_n_n 64 rfl rfl).symm k) = rk64 j k := funext fun a => Fin.ext (by
    match a with
    | ⟨0, _⟩ => exact (rhs64_0 _ _).trans hk
    | ⟨1, _⟩ => exact rhs64_1 _ _)
  rw [el, er]

/-! ## The bias row broadcast along the rows -/

/-- The bias row's entry under column `j 1`. -/
abbrev brow (j : S10000x64.Idx) : S1x64.Idx := fun a => match a with
  | ⟨0, _⟩ => ⟨0, Nat.one_pos⟩
  | ⟨1, _⟩ => ⟨(j 1).val, (j 1).isLt⟩

theorem bcast_row_apply {α : Type} (b : S1x64.Idx → α) (j : S10000x64.Idx) :
    broadcastTo S10000x64 b broadcasts_S1x64_S10000x64 j = b (brow j) :=
  broadcastTo_apply b broadcasts_S1x64_S10000x64 j (brow j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-! ## The bodies -/

/-- The edge-message body at entry `j` of its block. -/
theorem pay0_apply (v0 : FVec Ideal S10000x16 .f32) (v2 : FVec Ideal S16x64 .bf16) (v5 : FVec Ideal S10000x64 .f32)
    (v8 : FVec Ideal S1x64 .f32) (j : S10000x64.Idx) :
    k0_pay1 (F := Ideal) v0 v2 v5 v8 j
      = (v5 j + ∑ k : Fin 16, v0 (lk16 j k) * v2 (rk16 j k)) + v8 (brow j) := by
  unfold k0_pay1
  simp only [shapeCast_self]
  show FloatOps.addf (F := Ideal) (FloatOps.addf (F := Ideal) (v5 j) (matmul (F := Ideal) dot_S10000x16_S16x64_S10000x64_1_0_0_1_n_n none (truncf (F := Ideal) .bf16 v0 bitsLt_bf16_f32) v2 (constant (F := Ideal) S10000x64 .f32 0x00000000#32) j))
      (broadcastTo S10000x64 v8 broadcasts_S1x64_S10000x64 j) = _
  rw [mm16_apply, bcast_row_apply]
  rfl

/-- The combine body at entry `j` of its block. -/
theorem pay1_apply (v0 : FVec Ideal S10000x64 .f32) (v3 : FVec Ideal S10000x64 .f32) (v5 : FVec Ideal S64x64 .bf16)
    (v8 : FVec Ideal S1x64 .f32) (v12 : FVec Ideal S64x64 .bf16) (j : S10000x64.Idx) :
    k1_pay1 (F := Ideal) v0 v3 v5 v8 v12 j
      = ((∑ k : Fin 64, v0 (lk64 j k) * v5 (rk64 j k)) + v8 (brow j)) + ∑ k : Fin 64, v3 (lk64 j k) * v12 (rk64 j k) := by
  unfold k1_pay1
  simp only [shapeCast_self]
  show FloatOps.addf (F := Ideal) (FloatOps.addf (F := Ideal) (matmul (F := Ideal) dot_S10000x64_S64x64_S10000x64_1_0_0_1_n_n none (truncf (F := Ideal) .bf16 v0 bitsLt_bf16_f32) v5 (constant (F := Ideal) S10000x64 .f32 0x00000000#32) j)
        (broadcastTo S10000x64 v8 broadcasts_S1x64_S10000x64 j))
      (matmul (F := Ideal) dot_S10000x64_S64x64_S10000x64_1_0_0_1_n_n none (truncf (F := Ideal) .bf16 v3 bitsLt_bf16_f32) v12 (constant (F := Ideal) S10000x64 .f32 0x00000000#32) j) = _
  rw [mm64_apply, mm64_apply, bcast_row_apply]
  rfl

end Cert.KernelIdeal.Payload

end
-- ==== Proof.Spec.lean ====
/-
  What the program computes, as whole-array functions at the exact instance (a float is an extended real).

  * `msg`: the edge messages. Entry (e, q) is  (x_src[e, q] + ∑ k < 16, attr[e, k] · W_e[k, q]) + b_e[0, q],
    where x_src is the node-feature row of the edge's source node.
  * `meanAgg`: the messages summed into their destination nodes, each node's sum divided by max(count, 1), the count
    being the number of edges that land on the node. Both programs apply this same chain of host operations to
    their message arrays, so it is carried as one function and never opened.
  * `combine`: entry (n, q) is  ((∑ k < 64, a[n, k] · W_l[k, q]) + b_l[0, q]) + ∑ k < 64, x[n, k] · W_r[k, q].
  * `srcCol`, `dstCol`: the two rows of the edge list as index columns (a negative source index wrapped once by the
    number of nodes, as array indexing does).
-/
import proofs.«141460_j24996709662725_1_alg».proof.Proof.Gen.KernelIdeal
import Idealize.ShloMosaic.PureOps.Ideal

noncomputable section

namespace Cert.KernelIdeal.Spec

open Cert.KernelIdeal Cert.KernelIdeal.Gen Idealize.ShloMosaic Idealize.ShloMosaic.TcCoe Idealize.SL.Sem

/-! ## Index constructors -/

/-- Row `i 0` of the edge attributes at column `k`. -/
abbrev erow (i : S1000000x64.Idx) (k : Fin 16) : S1000000x16.Idx := fun a => match a with
  | ⟨0, _⟩ => ⟨(i 0).val, (i 0).isLt⟩
  | ⟨1, _⟩ => ⟨k.val, k.isLt⟩
/-- Row `k` of the edge weight at column `i 1`. -/
abbrev wcol (i : S1000000x64.Idx) (k : Fin 16) : S16x64.Idx := fun a => match a with
  | ⟨0, _⟩ => ⟨k.val, k.isLt⟩
  | ⟨1, _⟩ => ⟨(i 1).val, (i 1).isLt⟩
/-- The bias row's entry under column `i 1`. -/
abbrev bcol (i : S1000000x64.Idx) : S1x64.Idx := fun a => match a with
  | ⟨0, _⟩ => ⟨0, Nat.one_pos⟩
  | ⟨1, _⟩ => ⟨(i 1).val, (i 1).isLt⟩
/-- Row `i 0` of a node array at column `k`. -/
abbrev nrow (i : S100000x64.Idx) (k : Fin 64) : S100000x64.Idx := fun a => match a with
  | ⟨0, _⟩ => ⟨(i 0).val, (i 0).isLt⟩
  | ⟨1, _⟩ => ⟨k.val, k.isLt⟩
/-- Row `k` of a node weight at column `i 1`. -/
abbrev wcol64 (i : S100000x64.Idx) (k : Fin 64) : S64x64.Idx := fun a => match a with
  | ⟨0, _⟩ => ⟨k.val, k.isLt⟩
  | ⟨1, _⟩ => ⟨(i 1).val, (i 1).isLt⟩
/-- The bias row's entry under column `i 1`. -/
abbrev bcol64 (i : S100000x64.Idx) : S1x64.Idx := fun a => match a with
  | ⟨0, _⟩ => ⟨0, Nat.one_pos⟩
  | ⟨1, _⟩ => ⟨(i 1).val, (i 1).isLt⟩

/-! ## The two kernels' arrays -/

/-- The edge messages, entry by entry. -/
def msg (xs : FVec Ideal S1000000x64 .f32) (ea : FVec Ideal S1000000x16 .f32) (we : FVec Ideal S16x64 .bf16)
    (be : FVec Ideal S1x64 .f32) : FVec Ideal S1000000x64 .f32 :=
  fun i => (xs i + ∑ k : Fin 16, ea (erow i k) * we (wcol i k)) + be (bcol i)

/-- The combined node output, entry by entry. -/
def combine (a x : FVec Ideal S100000x64 .f32) (wl : FVec Ideal S64x64 .bf16) (bl : FVec Ideal S1x64 .f32)
    (wr : FVec Ideal S64x64 .bf16) : FVec Ideal S100000x64 .f32 :=
  fun i => ((∑ k : Fin 64, a (nrow i k) * wl (wcol64 i k)) + bl (bcol64 i)) + ∑ k : Fin 64, x (nrow i k) * wr (wcol64 i k)

/-! ## The host operations shared by the two programs -/

abbrev EdgeList : Type := (⟨S2x1000000, .i32⟩ : BufTy).Contents (Elt Ideal)

/-- Row 0 of the edge list: the source nodes. -/
def srcRow (x7 : EdgeList) : (⟨S1000000, .i32⟩ : BufTy).Contents (Elt Ideal) :=
  shapeCast _ (extractStridedSlice S1x1000000 ![0, 0] x7 slices_S2x1000000_S1x1000000_0_0) shapeCasts_S1x1000000_S1000000
/-- Row 1 of the edge list: the destination nodes. -/
def dstRow (x7 : EdgeList) : (⟨S1000000, .i32⟩ : BufTy).Contents (Elt Ideal) :=
  shapeCast _ (extractStridedSlice S1x1000000 ![1, 0] x7 slices_S2x1000000_S1x1000000_1_0) shapeCasts_S1x1000000_S1000000
/-- The source nodes as an index column, a negative index wrapped once by the number of nodes. -/
def srcCol (x7 : EdgeList) : (⟨S1000000x1, .i32⟩ : BufTy).Contents (Elt Ideal) :=
  broadcastInDim S1000000x1 ![0] bcast_S1000000_S1000000x1_0
    (select (cmpi .slt (srcRow x7) (broadcastInDim S1000000 ![] bcast_S_S1000000 (constantI S_ 32 0#32)))
      (addi (srcRow x7) (broadcastInDim S1000000 ![] bcast_S_S1000000 (constantI S_ 32 100000#32))) (srcRow x7))
/-- The destination nodes as an index column. -/
def dstCol (x7 : EdgeList) : (⟨S1000000x1, .i32⟩ : BufTy).Contents (Elt Ideal) :=
  broadcastInDim S1000000x1 ![0] bcast_S1000000_S1000000x1_0 (dstRow x7)

/-- The source node's feature row of every edge. -/
def gathered (x0 : FVec Ideal S100000x64 .f32) (x7 : EdgeList) : FVec Ideal S1000000x64 .f32 :=
  Host.gather gather_S100000x64_S1000000x1_S1000000x64_1_0_n_n_0_1_164 x0 (srcCol x7)

/-- The mean of the messages landing on each node (the sum where none or one lands). -/
def meanAgg (x7 : EdgeList) (M : FVec Ideal S1000000x64 .f32) : FVec Ideal S100000x64 .f32 :=
  Host.divf
    (Host.scatterAdd scatter_S100000x64_S1000000x1_S1000000x64_1_0_0_1
      (broadcastInDim S100000x64 ![] bcast_S_S100000x64 (constant (F := Ideal) S_ .f32 0x00000000#32)) (dstCol x7) M)
    (broadcastInDim S100000x64 ![0, 1] bcast_S100000x1_S100000x64_0_1
      (maximumf
        (Host.scatterAdd scatter_S100000x1_S1000000x1_S1000000x1_1_0_0_1
          (broadcastInDim S100000x1 ![] bcast_S_S100000x1 (constant (F := Ideal) S_ .f32 0x00000000#32)) (dstCol x7)
          (broadcastInDim S1000000x1 ![] bcast_S_S1000000x1 (constant (F := Ideal) S_ .f32 0x3F800000#32)))
        (broadcastInDim S100000x1 ![] bcast_S_S100000x1 (constant (F := Ideal) S_ .f32 0x3F800000#32))))

/-- The program's result as one function of its eight arguments. -/
def result (x0 : FVec Ideal S100000x64 .f32) (x1 : FVec Ideal S1000000x16 .f32) (x2 : FVec Ideal S16x64 .f32)
    (x3 : FVec Ideal S64 .f32) (x4 : FVec Ideal S64x64 .f32) (x5 : FVec Ideal S64 .f32) (x6 : FVec Ideal S64x64 .f32)
    (x7 : EdgeList) : FVec Ideal S100000x64 .f32 :=
  combine
    (meanAgg x7 (msg (gathered x0 x7) x1 (truncf .bf16 x2 bitsLt_bf16_f32) (shapeCast S1x64 x3 shapeCasts_S64_S1x64)))
    x0 (truncf .bf16 x4 bitsLt_bf16_f32) (shapeCast S1x64 x5 shapeCasts_S64_S1x64) (truncf .bf16 x6 bitsLt_bf16_f32)

end Cert.KernelIdeal.Spec

end
-- ==== Proof.Region0.lean ====
/-
  The first kernel's output array after its run, as one function of the arrays the region finds.

  The grid has 100 points; point t stages rows 10000·t … 10000·t + 9999 of the gathered features and of the edge
  attributes, the whole edge weight and the whole bias row, and writes back rows 10000·t … 10000·t + 9999 of the
  message array. What it writes is the block's body value, and the body's entry (p, q) is the message entry
  (10000·t + p, q): row 10000·t + p of the attributes against column q of the weight. The 100 blocks tile the
  1000000 rows, so the array ends holding the messages everywhere.
-/
import proofs.«141460_j24996709662725_1_alg».proof.Proof.Gen.KernelIdeal.Frame
import proofs.«141460_j24996709662725_1_alg».proof.Proof.Payload
import proofs.«141460_j24996709662725_1_alg».proof.Proof.Spec
import Idealize.ShloMosaic.Lib.Pipeline.Value

set_option maxRecDepth 16384

noncomputable section

namespace Cert.KernelIdeal.Region0

open Cert.KernelIdeal Cert.KernelIdeal.Gen Cert.KernelIdeal.Spec Cert.KernelIdeal.Payload
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The arrays the region finds, each at its literal type. -/
abbrev srcRows (c : Dev nD) : FVec Ideal S1000000x64 .f32 := V c main_v10
abbrev attrs (c : Dev nD) : FVec Ideal S1000000x16 .f32 := V c main_arg1
abbrev weight (c : Dev nD) : FVec Ideal S16x64 .bf16 := V c main_v11
abbrev biasRow (c : Dev nD) : FVec Ideal S1x64 .f32 := V c main_v12

theorem zero_offsets : (![0, 0] : Fin 2 → Nat) = fun _ => 0 := funext fun a => by fin_cases a <;> rfl

/-- The printed index maps over the grid: the row-blocked windows move with the point, the weight and the bias stay. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the message array of the region's entry contents. -/
theorem flushed_eq (c : Dev nD) (t : Fin cfg0.N) :
    (dat0 V c).flushed 4 t = ((cfg0.win 4).blk t).view.read (Elt Ideal)
      (msg (V c main_v10) (V c main_arg1) (V c main_v11) (V c main_v12)) := by
  show (cfg0.win 4).cut (grid0.coords t) ((dat0 V c).after 4 t) = _
  rw [after0_4]
  unfold out0_4
  rw [View.canon_unit_zero zero_offsets]
  simp only [View.ld_unit_zero (S := S10000x64) zero_offsets, View.ld_unit_zero (S := S10000x16) zero_offsets,
    View.ld_unit_zero (S := S16x64) zero_offsets, View.ld_unit_zero (S := S1x64) zero_offsets]
  obtain ⟨e00, e01, e10, e11, e20, e21, e30, e31, e40, e41⟩ := index_maps t
  funext j
  show k0_pay1 (F := Ideal) (iblk0 V c 1 t) (iblk0 V c 2 t) (iblk0 V c 0 t) (iblk0 V c 3 t) j
      = msg (V c main_v10) (V c main_arg1) (V c main_v11) (V c main_v12) (((cfg0.win 4).blk t).view.emb j)
  refine (pay0_apply (iblk0 V c 1 t) (iblk0 V c 2 t) (iblk0 V c 0 t) (iblk0 V c 3 t) j).trans ?_
  have hj0 : (j 0).val < 10000 := (j 0).isLt
  have hj1 : (j 1).val < 64 := (j 1).isLt
  have h0 : ((cfg0.win 0).blk t).view.emb j = ((cfg0.win 4).blk t).view.emb j := by
    funext a; apply Fin.ext
    match a with
    | ⟨0, _⟩ => show win0_0.index t (0 : Fin 2) * 10000 + 1 * (j 0).val = win0_4.index t (0 : Fin 2) * 10000 + 1 * (j 0).val; omega
    | ⟨1, _⟩ => show win0_0.index t (1 : Fin 2) * 64 + 1 * (j 1).val = win0_4.index t (1 : Fin 2) * 64 + 1 * (j 1).val; omega
  have h1 : ∀ k : Fin 16, ((cfg0.win 1).blk t).view.emb (lk16 j k) = erow (((cfg0.win 4).blk t).view.emb j) k := by
    intro k; funext a; apply Fin.ext
    match a with
    | ⟨0, _⟩ => show win0_1.index t (0 : Fin 2) * 10000 + 1 * (j 0).val = win0_4.index t (0 : Fin 2) * 10000 + 1 * (j 0).val; omega
    | ⟨1, _⟩ => show win0_1.index t (1 : Fin 2) * 16 + 1 * k.val = k.val; omega
  have h2 : ∀ k : Fin 16, ((cfg0.win 2).blk t).view.emb (rk16 j k) = wcol (((cfg0.win 4).blk t).view.emb j) k := by
    intro k; funext a; apply Fin.ext
    match a with
    | ⟨0, _⟩ => show win0_2.index t (0 : Fin 2) * 16 + 1 * k.val = k.val; omega
    | ⟨1, _⟩ => show win0_2.index t (1 : Fin 2) * 64 + 1 * (j 1).val = win0_4.index t (1 : Fin 2) * 64 + 1 * (j 1).val; omega
  have h3 : ((cfg0.win 3).blk t).view.emb (brow j) = bcol (((cfg0.win 4).blk t).view.emb j) := by
    funext a; apply Fin.ext
    match a with
    | ⟨0, _⟩ => show win0_3.index t (0 : Fin 2) * 1 + 1 * 0 = 0; omega
    | ⟨1, _⟩ => show win0_3.index t (1 : Fin 2) * 64 + 1 * (j 1).val = win0_4.index t (1 : Fin 2) * 64 + 1 * (j 1).val; omega
  show (srcRows V c (((cfg0.win 0).blk t).view.emb j)
        + ∑ k : Fin 16, attrs V c (((cfg0.win 1).blk t).view.emb (lk16 j k)) * weight V c (((cfg0.win 2).blk t).view.emb (rk16 j k)))
      + biasRow V c (((cfg0.win 3).blk t).view.emb (brow j)) = _
  rw [h0, h3]
  simp only [h1, h2]
  rfl

/-- An index of the message array is in point `t`'s block iff each coordinate is in the block's range on its axis. -/
theorem mem_blk (t : Fin cfg0.N) (i : S1000000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v13).slice (win0_4.rect t)).set ↔ _
  rw [View.set_slice_whole, Rect.mem_set_unit]
  exact Iff.rfl

/-- Row r lies in the block of point r / 10000: the blocks tile the array. -/
theorem cover (i : S1000000x64.Idx) :
    ∃ t : Fin cfg0.N, (cfg0.win 4).flush t = true ∧ i ∈ ((cfg0.win 4).blk t).view.set := by
  have hi0 : (i 0).val < 1000000 := (i 0).isLt
  have hi1 : (i 1).val < 64 := (i 1).isLt
  have hN : (i 0).val / 10000 < cfg0.N := by rw [show cfg0.N = 100 from N_0]; omega
  obtain ⟨-, -, -, -, -, -, -, -, e40, e41⟩ := index_maps ⟨(i 0).val / 10000, hN⟩
  refine ⟨⟨(i 0).val / 10000, hN⟩, flush0_4 _, ?_⟩
  rw [mem_blk]
  intro a
  match a with
  | ⟨0, _⟩ =>
    show win0_4.index ⟨(i 0).val / 10000, hN⟩ (0 : Fin 2) * 10000 ≤ (i 0).val ∧ (i 0).val < win0_4.index ⟨(i 0).val / 10000, hN⟩ (0 : Fin 2) * 10000 + 10000
    rw [e40]; show (i 0).val / 10000 * 10000 ≤ (i 0).val ∧ (i 0).val < (i 0).val / 10000 * 10000 + 10000; omega
  | ⟨1, _⟩ =>
    show win0_4.index ⟨(i 0).val / 10000, hN⟩ (1 : Fin 2) * 64 ≤ (i 1).val ∧ (i 1).val < win0_4.index ⟨(i 0).val / 10000, hN⟩ (1 : Fin 2) * 64 + 64
    rw [e41]; omega

/-- The message array after the first kernel's run. -/
theorem final (c : Dev nD) :
    (dat0 V c).arrAt 4 cfg0.N = msg (V c main_v10) (V c main_arg1) (V c main_v11) (V c main_v12) :=
  (dat0 V c).arrAt_eq_of_cover 4 _ (fun t _ => flushed_eq V c t) cover

end Cert.KernelIdeal.Region0

end
-- ==== Proof.Region1.lean ====
/-
  The second kernel's output array after its run, as one function of the arrays the region finds.

  The grid has 10 points; point t stages rows 10000·t … 10000·t + 9999 of the aggregated messages and of the node
  features, the two whole weights and the whole bias row, and writes back rows 10000·t … 10000·t + 9999 of the
  result. The body's entry (p, q) is the combined entry (10000·t + p, q), and the 10 blocks tile the 100000 rows.
-/
import proofs.«141460_j24996709662725_1_alg».proof.Proof.Gen.KernelIdeal.Frame
import proofs.«141460_j24996709662725_1_alg».proof.Proof.Payload
import proofs.«141460_j24996709662725_1_alg».proof.Proof.Spec
import Idealize.ShloMosaic.Lib.Pipeline.Value

set_option maxRecDepth 16384

noncomputable section

namespace Cert.KernelIdeal.Region1

open Cert.KernelIdeal Cert.KernelIdeal.Gen Cert.KernelIdeal.Spec Cert.KernelIdeal.Payload
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The arrays the region finds, each at its literal type. -/
abbrev aggRows (c : Dev nD) : FVec Ideal S100000x64 .f32 := V c main_v24
abbrev nodeRows (c : Dev nD) : FVec Ideal S100000x64 .f32 := V c main_arg0
abbrev weightL (c : Dev nD) : FVec Ideal S64x64 .bf16 := V c main_v25
abbrev biasRow (c : Dev nD) : FVec Ideal S1x64 .f32 := V c main_v27
abbrev weightR (c : Dev nD) : FVec Ideal S64x64 .bf16 := V c main_v26

theorem zero_offsets : (![0, 0] : Fin 2 → Nat) = fun _ => 0 := funext fun a => by fin_cases a <;> rfl

/-- The printed index maps over the grid: the row-blocked windows move with the point, the weights and the bias stay. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the combined array of the region's entry contents. -/
theorem flushed_eq (c : Dev nD) (t : Fin cfg1.N) :
    (dat1 V c).flushed 5 t = ((cfg1.win 5).blk t).view.read (Elt Ideal)
      (combine (V c main_v24) (V c main_arg0) (V c main_v25) (V c main_v27) (V c main_v26)) := by
  show (cfg1.win 5).cut (grid1.coords t) ((dat1 V c).after 5 t) = _
  rw [after1_5]
  unfold out1_5
  rw [View.canon_unit_zero zero_offsets]
  simp only [View.ld_unit_zero (S := S10000x64) zero_offsets, View.ld_unit_zero (S := S64x64) zero_offsets,
    View.ld_unit_zero (S := S1x64) zero_offsets]
  obtain ⟨e00, e01, e10, e11, e20, e21, e30, e31, e40, e41, e50, e51⟩ := index_maps t
  funext j
  show k1_pay1 (F := Ideal) (iblk1 V c 0 t) (iblk1 V c 1 t) (iblk1 V c 2 t) (iblk1 V c 3 t) (iblk1 V c 4 t) j
      = combine (V c main_v24) (V c main_arg0) (V c main_v25) (V c main_v27) (V c main_v26) (((cfg1.win 5).blk t).view.emb j)
  refine (pay1_apply (iblk1 V c 0 t) (iblk1 V c 1 t) (iblk1 V c 2 t) (iblk1 V c 3 t) (iblk1 V c 4 t) j).trans ?_
  have hj0 : (j 0).val < 10000 := (j 0).isLt
  have hj1 : (j 1).val < 64 := (j 1).isLt
  have h0 : ∀ k : Fin 64, ((cfg1.win 0).blk t).view.emb (lk64 j k) = nrow (((cfg1.win 5).blk t).view.emb j) k := by
    intro k; funext a; apply Fin.ext
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * k.val = k.val; omega
  have h1 : ∀ k : Fin 64, ((cfg1.win 1).blk t).view.emb (lk64 j k) = nrow (((cfg1.win 5).blk t).view.emb j) k := by
    intro k; funext a; apply Fin.ext
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 64 + 1 * k.val = k.val; omega
  have h2 : ∀ k : Fin 64, ((cfg1.win 2).blk t).view.emb (rk64 j k) = wcol64 (((cfg1.win 5).blk t).view.emb j) k := by
    intro k; funext a; apply Fin.ext
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  have h3 : ((cfg1.win 3).blk t).view.emb (brow j) = bcol64 (((cfg1.win 5).blk t).view.emb j) := by
    funext a; apply Fin.ext
    match a with
    | ⟨0, _⟩ => show win1_3.index t (0 : Fin 2) * 1 + 1 * 0 = 0; omega
    | ⟨1, _⟩ => show win1_3.index t (1 : Fin 2) * 64 + 1 * (j 1).val = win1_5.index t (1 : Fin 2) * 64 + 1 * (j 1).val; omega
  have h4 : ∀ k : Fin 64, ((cfg1.win 4).blk t).view.emb (rk64 j k) = wcol64 (((cfg1.win 5).blk t).view.emb j) k := by
    intro k; funext a; apply Fin.ext
    match a with
    | ⟨0, _⟩ => show win1_4.index t (0 : Fin 2) * 64 + 1 * k.val = k.val; omega
    | ⟨1, _⟩ => show win1_4.index t (1 : Fin 2) * 64 + 1 * (j 1).val = win1_5.index t (1 : Fin 2) * 64 + 1 * (j 1).val; omega
  show ((∑ k : Fin 64, aggRows V c (((cfg1.win 0).blk t).view.emb (lk64 j k)) * weightL V c (((cfg1.win 2).blk t).view.emb (rk64 j k)))
        + biasRow V c (((cfg1.win 3).blk t).view.emb (brow j)))
      + ∑ k : Fin 64, nodeRows V c (((cfg1.win 1).blk t).view.emb (lk64 j k)) * weightR V c (((cfg1.win 4).blk t).view.emb (rk64 j k)) = _
  rw [h3]
  simp only [h0, h1, h2, h4]
  rfl

/-- An index of the result array is in point `t`'s block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v28).slice (win1_5.rect t)).set ↔ _
  rw [View.set_slice_whole, Rect.mem_set_unit]
  exact Iff.rfl

/-- Row r lies in the block of point r / 10000: the blocks tile the array. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 10000 < cfg1.N := by rw [show cfg1.N = 10 from N_1]; omega
  obtain ⟨-, -, -, -, -, -, -, -, -, -, e50, e51⟩ := index_maps ⟨(i 0).val / 10000, hN⟩
  refine ⟨⟨(i 0).val / 10000, hN⟩, flush1_5 _, ?_⟩
  rw [mem_blk]
  intro a
  match a with
  | ⟨0, _⟩ =>
    show win1_5.index ⟨(i 0).val / 10000, hN⟩ (0 : Fin 2) * 10000 ≤ (i 0).val ∧ (i 0).val < win1_5.index ⟨(i 0).val / 10000, hN⟩ (0 : Fin 2) * 10000 + 10000
    rw [e50]; show (i 0).val / 10000 * 10000 ≤ (i 0).val ∧ (i 0).val < (i 0).val / 10000 * 10000 + 10000; omega
  | ⟨1, _⟩ =>
    show win1_5.index ⟨(i 0).val / 10000, hN⟩ (1 : Fin 2) * 64 ≤ (i 1).val ∧ (i 1).val < win1_5.index ⟨(i 0).val / 10000, hN⟩ (1 : Fin 2) * 64 + 64
    rw [e51]; omega

/-- The result array after the second kernel's run. -/
theorem final (c : Dev nD) :
    (dat1 V c).arrAt 5 cfg1.N = combine (V c main_v24) (V c main_arg0) (V c main_v25) (V c main_v27) (V c main_v26) :=
  (dat1 V c).arrAt_eq_of_cover 5 _ (fun t _ => flushed_eq V c t) cover

end Cert.KernelIdeal.Region1

end
-- ==== Proof.HostValue.lean ====
/-
  The contents of the buffers the two kernels find, and the result the second one leaves, as functions of the
  program's arguments.

  Before the first kernel the host slices the edge list into its source and destination rows, wraps negative source
  indices, gathers the source rows of the node features, narrows the edge weight and reshapes the edge bias to a
  row. Between the kernels it sums the message array (what the first kernel left) into the destination nodes, counts
  the edges per node, divides, narrows the two node weights and reshapes the node bias. No operation and no kernel
  writes an argument, so each argument buffer reads back its launch contents at every boundary.
-/
import proofs.«141460_j24996709662725_1_alg».proof.Proof.Region0
import proofs.«141460_j24996709662725_1_alg».proof.Proof.Region1
import Idealize.ShloMosaic.Lib.StableHlo.Run

set_option maxRecDepth 16384

noncomputable section

namespace Cert.KernelIdeal.HostValue

open Cert.KernelIdeal Cert.KernelIdeal.Gen Cert.KernelIdeal.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first kernel's entry -/

theorem entry0_arg1 (c : Dev nD) : V1 m ρ c main_arg1 = (m ((c : Thread nD τ).loc main_arg1)) := by
  show StableHlo.after hostOps0 (W0 m ρ c) (Proc.devRef .tc main_arg1) = _
  after_results

theorem entry0_v10 (c : Dev nD) : V1 m ρ c main_v10 = gathered (m ((c : Thread nD τ).loc main_arg0)) (m ((c : Thread nD τ).loc main_arg7)) := by
  show StableHlo.after hostOps0 (W0 m ρ c) (Proc.devRef .tc main_v10) = _
  after_results; rfl

theorem entry0_v11 (c : Dev nD) : V1 m ρ c main_v11 = truncf (F := Ideal) .bf16 (m ((c : Thread nD τ).loc main_arg2)) bitsLt_bf16_f32 := by
  show StableHlo.after hostOps0 (W0 m ρ c) (Proc.devRef .tc main_v11) = _
  after_results

theorem entry0_v12 (c : Dev nD) : V1 m ρ c main_v12 = shapeCast S1x64 (m ((c : Thread nD τ).loc main_arg3)) shapeCasts_S64_S1x64 := by
  show StableHlo.after hostOps0 (W0 m ρ c) (Proc.devRef .tc main_v12) = _
  after_results; rfl

/-! ## At the first kernel's exit -/

/-- The message array. -/
theorem exit0_v13 (c : Dev nD) : W2 m ρ c (Proc.devRef .tc main_v13)
    = msg (gathered (m ((c : Thread nD τ).loc main_arg0)) (m ((c : Thread nD τ).loc main_arg7))) (m ((c : Thread nD τ).loc main_arg1))
        (truncf (F := Ideal) .bf16 (m ((c : Thread nD τ).loc main_arg2)) bitsLt_bf16_f32) (shapeCast S1x64 (m ((c : Thread nD τ).loc main_arg3)) shapeCasts_S64_S1x64) := by
  refine (W2_arr m ρ c 4).trans ((Region0.final (V1 m ρ) c).trans ?_)
  rw [entry0_v10, entry0_arg1, entry0_v11, entry0_v12]

theorem exit0_v3 (c : Dev nD) : W2 m ρ c (Proc.devRef .tc main_v3) = dstRow (m ((c : Thread nD τ).loc main_arg7)) := by
  refine (W2_of_ne m ρ c main_v3 (by decide)).trans ?_
  show StableHlo.after hostOps0 (W0 m ρ c) (Proc.devRef .tc main_v3) = _
  after_results; rfl

theorem exit0_arg0 (c : Dev nD) : W2 m ρ c (Proc.devRef .tc main_arg0) = (m ((c : Thread nD τ).loc main_arg0)) := by
  refine (W2_of_ne m ρ c main_arg0 (by decide)).trans ?_
  show StableHlo.after hostOps0 (W0 m ρ c) (Proc.devRef .tc main_arg0) = _
  after_results

theorem exit0_arg4 (c : Dev nD) : W2 m ρ c (Proc.devRef .tc main_arg4) = (m ((c : Thread nD τ).loc main_arg4)) := by
  refine (W2_of_ne m ρ c main_arg4 (by decide)).trans ?_
  show StableHlo.after hostOps0 (W0 m ρ c) (Proc.devRef .tc main_arg4) = _
  after_results

theorem exit0_arg5 (c : Dev nD) : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results

theorem exit0_arg6 (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results

/-! ## At the second kernel's entry -/

theorem entry1_arg0 (c : Dev nD) : V3 m ρ c main_arg0 = (m ((c : Thread nD τ).loc main_arg0)) := by
  show StableHlo.after hostOps1 (W2 m ρ c) (Proc.devRef .tc main_arg0) = _
  after_results
  exact exit0_arg0 m ρ c

theorem entry1_v25 (c : Dev nD) : V3 m ρ c main_v25 = truncf (F := Ideal) .bf16 (m ((c : Thread nD τ).loc main_arg4)) bitsLt_bf16_f32 := by
  show StableHlo.after hostOps1 (W2 m ρ c) (Proc.devRef .tc main_v25) = _
  after_results
  rw [exit0_arg4]

theorem entry1_v26 (c : Dev nD) : V3 m ρ c main_v26 = truncf (F := Ideal) .bf16 (m ((c : Thread nD τ).loc main_arg6)) bitsLt_bf16_f32 := by
  show StableHlo.after hostOps1 (W2 m ρ c) (Proc.devRef .tc main_v26) = _
  after_results
  rw [exit0_arg6]

theorem entry1_v27 (c : Dev nD) : V3 m ρ c main_v27 = shapeCast S1x64 (m ((c : Thread nD τ).loc main_arg5)) shapeCasts_S64_S1x64 := by
  show StableHlo.after hostOps1 (W2 m ρ c) (Proc.devRef .tc main_v27) = _
  after_results
  rw [exit0_arg5]
  rfl

/-- The aggregated messages: the shared host chain applied to the message array. -/
theorem entry1_v24 (c : Dev nD) : V3 m ρ c main_v24
    = meanAgg (m ((c : Thread nD τ).loc main_arg7)) (msg (gathered (m ((c : Thread nD τ).loc main_arg0)) (m ((c : Thread nD τ).loc main_arg7))) (m ((c : Thread nD τ).loc main_arg1))
        (truncf (F := Ideal) .bf16 (m ((c : Thread nD τ).loc main_arg2)) bitsLt_bf16_f32) (shapeCast S1x64 (m ((c : Thread nD τ).loc main_arg3)) shapeCasts_S64_S1x64)) := by
  show StableHlo.after hostOps1 (W2 m ρ c) (Proc.devRef .tc main_v24) = _
  after_results
  rw [exit0_v3, exit0_v13]
  rfl

/-! ## The result -/

/-- What the second kernel leaves in the result buffer is the program's function of the eight arguments. -/
theorem result_eq (c : Dev nD) : W4 m ρ c (Proc.devRef .tc main_v28)
    = result (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W4_arr m ρ c 5).trans ((Region1.final (V3 m ρ) c).trans ?_)
  rw [entry1_v24, entry1_arg0, entry1_v25, entry1_v27, entry1_v26]
  rfl

end Cert.KernelIdeal.HostValue

end
-- ==== Proof.RefValue.lean ====
/-
  The reference's result is the kernel program's function of the eight arguments.

  The reference builds the messages as  x_src + ((attr · W_e) + b_e), the kernel as  (x_src + attr · W_e) + b_e:
  one association of a sum of three extended reals, and addition of extended reals is associative everywhere, the
  infinities included, so no finiteness is used. Its `attr · W_e` is the same sum over the 16 contracted positions;
  its bias, broadcast from a vector, reads the same entry as the kernel's bias row. Both programs then apply the same
  scatter-sum, count, maximum and quotient to their message arrays — carried as one function and never opened — and
  the reference's  (agg · W_l + b_l) + x · W_r  is the combine kernel's expression entry by entry.
-/
import proofs.«141460_j24996709662725_1_alg».proof.Proof.Gen.ReferenceIdeal.Read
import proofs.«141460_j24996709662725_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem

local notation "KS.msg" => Cert.KernelIdeal.Spec.msg
local notation "KS.gathered" => Cert.KernelIdeal.Spec.gathered
local notation "KS.meanAgg" => Cert.KernelIdeal.Spec.meanAgg
local notation "KS.combine" => Cert.KernelIdeal.Spec.combine
local notation "KS.result" => Cert.KernelIdeal.Spec.result

/-- A vector reshaped to a one-row matrix reads, under column `q`, the vector's entry `q`. -/
theorem row_of_vector (x : (⟨S64, .f32⟩ : BufTy).Contents (Elt Ideal)) (q : Fin 64) (j : S1x64.Idx) (k : S64.Idx)
    (hj0 : (j 0).val = 0) (hj1 : (j 1).val = q.val) (hk : (k 0).val = q.val) :
    shapeCast Cert.KernelIdeal.S1x64 x Cert.KernelIdeal.Gen.shapeCasts_S64_S1x64 j = x k :=
  shapeCast_apply x Cert.KernelIdeal.Gen.shapeCasts_S64_S1x64 j k
    (by rewrite [Shape.rowMajor_val_one, Shape.rowMajor_val_two]; show (k 0).val = (j 0).val * 64 + (j 1).val; omega)

/-- The reference's message array is the kernel's. -/
theorem msg_eq (x0 : (⟨S100000x64, .f32⟩ : BufTy).Contents (Elt Ideal)) (x1 : (⟨S1000000x16, .f32⟩ : BufTy).Contents (Elt Ideal)) (x2 : (⟨S16x64, .f32⟩ : BufTy).Contents (Elt Ideal)) (x3 : (⟨S64, .f32⟩ : BufTy).Contents (Elt Ideal)) (x7 : (⟨S2x1000000, .i32⟩ : BufTy).Contents (Elt Ideal)) :
    val_main_v15 (F := Ideal) x0 x1 x2 x3 x7 = (KS.msg (KS.gathered x0 x7) x1 (truncf (F := Ideal) .bf16 x2 Cert.KernelIdeal.Gen.bitsLt_bf16_f32) (shapeCast Cert.KernelIdeal.S1x64 x3 Cert.KernelIdeal.Gen.shapeCasts_S64_S1x64)) := by
  funext i
  rw [val_main_v15_apply, val_main_v14_apply, val_main_v11_apply, val_main_v13_apply, val_main_v12_apply]
  have hb : shapeCast Cert.KernelIdeal.S1x64 x3 Cert.KernelIdeal.Gen.shapeCasts_S64_S1x64 (Cert.KernelIdeal.Spec.bcol i)
      = x3 (idx_main_v12 (idx_main_v13 i)) :=
    row_of_vector x3 ⟨(i 1).val, (i 1).isLt⟩ _ _ rfl rfl rfl
  have el : ∀ k : Fin 16, lidx_main_v11 i k = Cert.KernelIdeal.Spec.erow i k := fun k => funext fun a => by
    match a with
    | ⟨0, _⟩ => rfl
    | ⟨1, _⟩ => rfl
  have er : ∀ k : Fin 16, ridx_main_v11 i k = Cert.KernelIdeal.Spec.wcol i k := fun k => funext fun a => by
    match a with
    | ⟨0, _⟩ => rfl
    | ⟨1, _⟩ => rfl
  show val_main_v10 (F := Ideal) x0 x7 i + ((∑ k : Fin 16, x1 (lidx_main_v11 i k) * x2 (ridx_main_v11 i k)) + x3 (idx_main_v12 (idx_main_v13 i)))
      = (KS.gathered x0 x7 i + ∑ k : Fin 16, x1 (Cert.KernelIdeal.Spec.erow i k) * x2 (Cert.KernelIdeal.Spec.wcol i k))
        + shapeCast Cert.KernelIdeal.S1x64 x3 Cert.KernelIdeal.Gen.shapeCasts_S64_S1x64 (Cert.KernelIdeal.Spec.bcol i)
  rw [hb, ← add_assoc]
  simp only [el, er]
  rfl

/-- The reference's aggregated messages are the shared host chain applied to its message array. -/
theorem agg_eq (x0 : (⟨S100000x64, .f32⟩ : BufTy).Contents (Elt Ideal)) (x1 : (⟨S1000000x16, .f32⟩ : BufTy).Contents (Elt Ideal)) (x2 : (⟨S16x64, .f32⟩ : BufTy).Contents (Elt Ideal)) (x3 : (⟨S64, .f32⟩ : BufTy).Contents (Elt Ideal)) (x7 : (⟨S2x1000000, .i32⟩ : BufTy).Contents (Elt Ideal)) :
    val_main_v26 (F := Ideal) x0 x1 x2 x3 x7 = KS.meanAgg x7 (val_main_v15 (F := Ideal) x0 x1 x2 x3 x7) := rfl

/-- The reference's result is the kernel program's function of the arguments. -/
theorem result_eq (x0 : (⟨S100000x64, .f32⟩ : BufTy).Contents (Elt Ideal)) (x1 : (⟨S1000000x16, .f32⟩ : BufTy).Contents (Elt Ideal)) (x2 : (⟨S16x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S2x1000000, .i32⟩ : BufTy).Contents (Elt Ideal)) :
    val_main_v32 (F := Ideal) x0 x1 x2 x3 x4 x5 x6 x7 = KS.result x0 x1 x2 x3 x4 x5 x6 x7 := by
  funext i
  rw [val_main_v32_apply, val_main_v30_apply, val_main_v27_apply, val_main_v31_apply, val_main_v29_apply, val_main_v28_apply]
  rw [agg_eq, msg_eq]
  have hb : shapeCast Cert.KernelIdeal.S1x64 x5 Cert.KernelIdeal.Gen.shapeCasts_S64_S1x64 (Cert.KernelIdeal.Spec.bcol64 i)
      = x5 (idx_main_v28 (idx_main_v29 i)) :=
    row_of_vector x5 ⟨(i 1).val, (i 1).isLt⟩ _ _ rfl rfl rfl
  have el : ∀ k : Fin 64, lidx_main_v27 i k = Cert.KernelIdeal.Spec.nrow i k := fun k => funext fun a => by
    match a with
    | ⟨0, _⟩ => rfl
    | ⟨1, _⟩ => rfl
  have er : ∀ k : Fin 64, ridx_main_v27 i k = Cert.KernelIdeal.Spec.wcol64 i k := fun k => funext fun a => by
    match a with
    | ⟨0, _⟩ => rfl
    | ⟨1, _⟩ => rfl
  have el' : ∀ k : Fin 64, lidx_main_v31 i k = Cert.KernelIdeal.Spec.nrow i k := fun k => funext fun a => by
    match a with
    | ⟨0, _⟩ => rfl
    | ⟨1, _⟩ => rfl
  have er' : ∀ k : Fin 64, ridx_main_v31 i k = Cert.KernelIdeal.Spec.wcol64 i k := fun k => funext fun a => by
    match a with
    | ⟨0, _⟩ => rfl
    | ⟨1, _⟩ => rfl
  show ((∑ k : Fin 64, KS.meanAgg x7 (KS.msg (KS.gathered x0 x7) x1 (truncf (F := Ideal) .bf16 x2 Cert.KernelIdeal.Gen.bitsLt_bf16_f32) (shapeCast Cert.KernelIdeal.S1x64 x3 Cert.KernelIdeal.Gen.shapeCasts_S64_S1x64)) (lidx_main_v27 i k) * x4 (ridx_main_v27 i k)) + x5 (idx_main_v28 (idx_main_v29 i)))
        + ∑ k : Fin 64, x0 (lidx_main_v31 i k) * x6 (ridx_main_v31 i k)
      = ((∑ k : Fin 64, KS.meanAgg x7 (KS.msg (KS.gathered x0 x7) x1 (truncf (F := Ideal) .bf16 x2 Cert.KernelIdeal.Gen.bitsLt_bf16_f32) (shapeCast Cert.KernelIdeal.S1x64 x3 Cert.KernelIdeal.Gen.shapeCasts_S64_S1x64)) (Cert.KernelIdeal.Spec.nrow i k) * x4 (Cert.KernelIdeal.Spec.wcol64 i k))
          + shapeCast Cert.KernelIdeal.S1x64 x5 Cert.KernelIdeal.Gen.shapeCasts_S64_S1x64 (Cert.KernelIdeal.Spec.bcol64 i))
        + ∑ k : Fin 64, x0 (Cert.KernelIdeal.Spec.nrow i k) * x6 (Cert.KernelIdeal.Spec.wcol64 i k)
  rw [hb]
  simp only [el, er, el', er']

end Cert.ReferenceIdeal.RefValue

end
-- ==== Proof.lean ====
/-
  The certificate of the edge-message / mean-aggregation / combine program against its array reference.

  Both programs gather the source rows of the node features, form one message per edge, sum the messages into
  their destination nodes, divide by max(count, 1) and combine the result with the node features through two
  weights and a bias. The kernel program does the message step and the combine step in two gridded kernels whose
  blocks tile the edge axis and the node axis; the reference does everything with whole-array operations.
  At the exact instance the two agree entry by entry: a block's matrix product is the same sum over the contracted
  axis as the whole-array product, the narrowing casts do nothing, and the only difference in arithmetic is the
  association of the three-term sum x_src + attr·W_e + b_e, which is associative on the extended reals without any
  finiteness. The gather and the scatter-mean are the same host operations in both programs and are never opened.

  The frames of the two kernel programs are the generated ones; the reference's frame is its generated run with the
  result dropped; the idealization rewrote nothing, so its preservation claim is trivial.
-/
import proofs.«141460_j24996709662725_1_alg».proof.Defs
import proofs.«141460_j24996709662725_1_alg».proof.Proof.Gen.Kernel
import proofs.«141460_j24996709662725_1_alg».proof.Proof.Gen.Kernel.Frame
import proofs.«141460_j24996709662725_1_alg».proof.Proof.Gen.KernelIdeal
import proofs.«141460_j24996709662725_1_alg».proof.Proof.Gen.KernelIdeal.Frame
import proofs.«141460_j24996709662725_1_alg».proof.Proof.Gen.ReferenceIdeal
import proofs.«141460_j24996709662725_1_alg».proof.Proof.Gen.ReferenceIdeal.Run
import proofs.«141460_j24996709662725_1_alg».proof.Proof.Gen.ReferenceIdeal.Read
import proofs.«141460_j24996709662725_1_alg».proof.Proof.Gen.Pre_finite_inputs
import proofs.«141460_j24996709662725_1_alg».proof.Proof.RunValue
import proofs.«141460_j24996709662725_1_alg».proof.Proof.HostValue
import proofs.«141460_j24996709662725_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the one function `Spec.result` of the (agreeing) arguments. -/
theorem algebraic : Cert.algebraic_KernelIdeal_ReferenceIdeal := by
  intro m ρ m' ρ' _ hagree
  refine ⟨fun c => Cert.KernelIdeal.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostValue.result_eq m ρ c), (h c).2⟩)
      (Cert.KernelIdeal.RunValue.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v32_eq, Cert.ReferenceIdeal.RefValue.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
